-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3072x8192 : Shape := ⟨3, ![2, 3072, 8192]⟩
abbrev S2x8192x8192 : Shape := ⟨3, ![2, 8192, 8192]⟩
abbrev S_ : Shape := ⟨0, ![]⟩

class Facts : Prop where
  bcast_S_S2x3072x8192 : S_.BroadcastsInDim S2x3072x8192 (![] : Fin 0 → Fin S2x3072x8192.rank)
  reducesTo_S2x3072x8192_S_d0_1_2 : S2x3072x8192.ReducesTo [0, 1, 2] S_
  h_S_ : 0 < S_.numel
  bcast_S_S2x8192x8192 : S_.BroadcastsInDim S2x8192x8192 (![] : Fin 0 → Fin S2x8192x8192.rank)
  reducesTo_S2x8192x8192_S_d0_1_2 : S2x8192x8192.ReducesTo [0, 1, 2] S_

variable [Facts]

def fn {F : FTy → Type} [FloatOps F] (main_arg0 : FVec F S2x3072x8192 .f32) (main_arg1 : FVec F S2x8192x8192 .f32) : IVec S_ 1 :=
  let main_v0 : FVec F S2x3072x8192 .f32 := Host.absf main_arg0
  let main_cst : FVec F S_ .f32 := constant S_ .f32 0x7F800000#32
  let main_v1 : FVec F S2x3072x8192 .f32 := broadcastInDim S2x3072x8192 ![] bcast_S_S2x3072x8192 main_cst
  let main_v2 : IVec S2x3072x8192 1 := cmpf .olt main_v0 main_v1
  let main_c : IVec S_ 1 := constantI S_ 1 1#1
  let main_v3 : IVec S_ 1 := (fun x v => Host.reduce IntOp.andi x v reducesTo_S2x3072x8192_S_d0_1_2 h_S_) main_v2 main_c
  let main_v4 : FVec F S2x8192x8192 .f32 := Host.absf main_arg1
  let main_cst_0 : FVec F S_ .f32 := constant S_ .f32 0x7F800000#32
  let main_v5 : FVec F S2x8192x8192 .f32 := broadcastInDim S2x8192x8192 ![] bcast_S_S2x8192x8192 main_cst_0
  let main_v6 : IVec S2x8192x8192 1 := cmpf .olt main_v4 main_v5
  let main_c_1 : IVec S_ 1 := constantI S_ 1 1#1
  let main_v7 : IVec S_ 1 := (fun x v => Host.reduce IntOp.andi x v reducesTo_S2x8192x8192_S_d0_1_2 h_S_) main_v6 main_c_1
  let main_v8 : IVec S_ 1 := andi main_v3 main_v7
  main_v8
-- ==== Kernel.lean ====
abbrev S2x3072x8192 : Shape := ⟨3, ![2, 3072, 8192]⟩
abbrev S2x8192x8192 : Shape := ⟨3, ![2, 8192, 8192]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x3072x8192, .f32⟩
  | .hbm, ⟨1, _⟩ => ⟨S2x8192x8192, .f32⟩
  | .hbm, ⟨2, _⟩ => ⟨S2x3072x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x3072x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 3, 8, 8], ![false, false, false, false]⟩

def k0_cond2 (i : grid0.Coords) : BitVec 1 :=
  let arg3 : BitVec 32 := BitVec.ofNat 32 (i 3).val
  let c7_i32 : BitVec 32 := 7#32
  let v15 : BitVec 1 := Scalar.cmpi .eq arg3 c7_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  shapeCasts_S1024x1024_S1x1024x1024 : S1024x1024.ShapeCasts S1x1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S2x3072x8192.size a
  hwx0_0 : ∀ i : grid0.Coords, EltTy.bits .f32 = 32 ∨ (Rect.block (s := S2x3072x8192) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x8192x8192.size a
  hwx0_1 : ∀ i : grid0.Coords, EltTy.bits .f32 = 32 ∨ (Rect.block (s := S2x8192x8192) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x3072x8192.size a
  hwx0_2 : ∀ i : grid0.Coords, EltTy.bits .f32 = 32 ∨ (Rect.block (s := S2x3072x8192) S1x1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x3072x8192 : Shape := ⟨3, ![2, 3072, 8192]⟩
abbrev S2x8192x8192 : Shape := ⟨3, ![2, 8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S2x3072x8192, .f32⟩
  | .hbm, ⟨1, _⟩ => ⟨S2x8192x8192, .f32⟩
  | .hbm, ⟨2, _⟩ => ⟨S2x3072x8192, .f32⟩
  | _, _ => ⟨S2x3072x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2x3072x8192_S2x8192x8192_S2x3072x8192_2_2_1_1_0_0_wf : DotDims.WF S2x3072x8192 S2x8192x8192 S2x3072x8192 [2] [2] [1] [1] [0] [0]

variable [Facts₀]

def dot_S2x3072x8192_S2x8192x8192_S2x3072x8192_2_2_1_1_0_0 : DotDims S2x3072x8192 S2x8192x8192 S2x3072x8192 where
  lhsContracting := [2]
  rhsContracting := [2]
  lhsNonContracting := [1]
  rhsNonContracting := [1]
  lhsBatch := [0]
  rhsBatch := [0]
  wf := dot_S2x3072x8192_S2x8192x8192_S2x3072x8192_2_2_1_1_0_0_wf

class Facts : Prop extends Facts₀ where

variable [Facts]
-- ==== Proof.Spec.lean ====
/-
  The mathematics both programs compute, stated with no program in sight.

  For a batch index b, x[b] is a 3072 x 8192 matrix and adj[b] an 8192 x 8192 matrix; the result is
  out[b, d, n] = sum over m of x[b, d, m] * adj[b, n, m], one inner product of length 8192 per entry.
  The inner product can be cut into 8 consecutive chunks of 1024 terms: summing the chunks one after the
  other from zero gives the same extended real as the one long sum, because addition of extended reals is
  commutative and associative (no finiteness is needed: nothing is distributed or cancelled).
-/
import Idealize.ShloMosaic.Lib.ValueIdx
import Idealize.ShloMosaic.PureOps.Ideal.Laws

noncomputable section

open scoped BigOperators

namespace GcnSpec

open Idealize.ShloMosaic Idealize.ShloMosaic.ValueIdx

/-- The shape of x and of the result: batch, feature row, node. -/
abbrev SX : Shape := ⟨3, ![2, 3072, 8192]⟩
/-- The shape of adj: batch, node, neighbour. -/
abbrev SA : Shape := ⟨3, ![2, 8192, 8192]⟩

/-- An entry of x named by three natural numbers (each wrapped into its axis, so that the name needs no bound;
    only coordinates inside the axes are ever asked for). -/
def xAt (X : SX.Idx → EReal) (b d k : ℕ) : EReal :=
  X (ix3 (⟨b % 2, Nat.mod_lt _ (by decide)⟩ : Fin 2) (⟨d % 3072, Nat.mod_lt _ (by decide)⟩ : Fin 3072)
    (⟨k % 8192, Nat.mod_lt _ (by decide)⟩ : Fin 8192))

/-- An entry of adj named the same way. -/
def aAt (A : SA.Idx → EReal) (b n k : ℕ) : EReal :=
  A (ix3 (⟨b % 2, Nat.mod_lt _ (by decide)⟩ : Fin 2) (⟨n % 8192, Nat.mod_lt _ (by decide)⟩ : Fin 8192)
    (⟨k % 8192, Nat.mod_lt _ (by decide)⟩ : Fin 8192))

theorem xAt_fin (X : SX.Idx → EReal) (b : Fin 2) (d : Fin 3072) (k : Fin 8192) :
    xAt X b.val d.val k.val = X (ix3 b d k) := by
  unfold xAt
  refine congrArg X (funext fun a => Fin.ext ?_)
  match a with
  | ⟨0, _⟩ => exact Nat.mod_eq_of_lt b.isLt
  | ⟨1, _⟩ => exact Nat.mod_eq_of_lt d.isLt
  | ⟨2, _⟩ => exact Nat.mod_eq_of_lt k.isLt

theorem aAt_fin (A : SA.Idx → EReal) (b : Fin 2) (n : Fin 8192) (k : Fin 8192) :
    aAt A b.val n.val k.val = A (ix3 b n k) := by
  unfold aAt
  refine congrArg A (funext fun a => Fin.ext ?_)
  match a with
  | ⟨0, _⟩ => exact Nat.mod_eq_of_lt b.isLt
  | ⟨1, _⟩ => exact Nat.mod_eq_of_lt n.isLt
  | ⟨2, _⟩ => exact Nat.mod_eq_of_lt k.isLt

/-- The term of the inner product at neighbour m. -/
def term (X : SX.Idx → EReal) (A : SA.Idx → EReal) (b d n m : ℕ) : EReal := xAt X b d m * aAt A b n m

/-- Chunk s of the inner product: neighbours 1024 s, …, 1024 s + 1023. -/
def chunk (X : SX.Idx → EReal) (A : SA.Idx → EReal) (b d n s : ℕ) : EReal :=
  ∑ j ∈ Finset.range 1024, term X A b d n (1024 * s + j)

/-- The whole inner product. -/
def inner (X : SX.Idx → EReal) (A : SA.Idx → EReal) (b d n : ℕ) : EReal :=
  ∑ m ∈ Finset.range 8192, term X A b d n m

/-- A sum over n * B consecutive naturals is the sum of its n blocks of B. -/
theorem sum_range_blocks {M : Type*} [AddCommMonoid M] (f : ℕ → M) (B : ℕ) :
    ∀ n : ℕ, ∑ k ∈ Finset.range (n * B), f k = ∑ s ∈ Finset.range n, ∑ j ∈ Finset.range B, f (B * s + j)
  | 0 => by rw [Nat.zero_mul, Finset.sum_range_zero, Finset.sum_range_zero]
  | n + 1 => by
    rw [Nat.succ_mul, Finset.sum_range_add, sum_range_blocks f B n, Finset.sum_range_succ, Nat.mul_comm B n]

/-- The inner product is the sum of its eight chunks. -/
theorem inner_eq_chunks (X : SX.Idx → EReal) (A : SA.Idx → EReal) (b d n : ℕ) :
    inner X A b d n = ∑ s ∈ Finset.range 8, chunk X A b d n s :=
  sum_range_blocks (term X A b d n) 1024 8

/-- The result array: entry (b, d, n) is the inner product of row d of x[b] with row n of adj[b], summed
    chunk by chunk from zero. -/
def result (X : SX.Idx → EReal) (A : SA.Idx → EReal) : SX.Idx → EReal :=
  fun i => 0 + ∑ s ∈ Finset.range 8, chunk X A (i 0).val (i 1).val (i 2).val s

theorem result_apply (X : SX.Idx → EReal) (A : SA.Idx → EReal) (i : SX.Idx) :
    result X A i = 0 + ∑ s ∈ Finset.range 8, chunk X A (i 0).val (i 1).val (i 2).val s := rfl

end GcnSpec

end
-- ==== Proof.Payloads.lean ====
/-
  The kernel body's three stored values, read at an index over the extended reals.

  The body keeps a 1024 x 1024 accumulator. It stores zero into it (first value), stores accumulator + x-block times
  the transpose of the adj-block into it (second value: entry (p, q) gains the inner product of row p of the
  x-block with row q of the adj-block, both contracted along their last axis), and copies it out as a
  1 x 1024 x 1024 block (third value). Narrowing the blocks to bf16 changes nothing over the extended reals.
-/
import proofs.«154029_j47476568490654_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## Dropping and adding the leading unit axis -/

/-- A 1 x 1024 x 1024 block viewed as a 1024 x 1024 matrix: entry (p, q) is entry (0, p, q). -/
theorem dropLead_apply {α : Type} (v : S1x1024x1024.Idx → α) (h : S1x1024x1024.ShapeCasts S1024x1024) (p q : Fin 1024) :
    shapeCast S1024x1024 v h (ix2 p q) = v (ix3 (0 : Fin 1) p q) :=
  shapeCast_apply v h _ _ (by
    rw [Shape.rowMajor_val_three, Shape.rowMajor_val_two]
    show ((0 : ℕ) * 1024 + p.val) * 1024 + q.val = p.val * 1024 + q.val
    omega)

/-- A 1024 x 1024 matrix stored as a 1 x 1024 x 1024 block: entry (0, p, q) is entry (p, q). -/
theorem addLead_apply {α : Type} (v : S1024x1024.Idx → α) (h : S1024x1024.ShapeCasts S1x1024x1024) (p q : Fin 1024) :
    shapeCast S1x1024x1024 v h (ix3 (0 : Fin 1) p q) = v (ix2 p q) :=
  shapeCast_apply v h _ _ (by
    rw [Shape.rowMajor_val_three, Shape.rowMajor_val_two]
    show p.val * 1024 + q.val = ((0 : ℕ) * 1024 + p.val) * 1024 + q.val
    omega)

/-! ## The product's operand indices: both operands are contracted along their last axis -/

theorem lhs_mm_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_mm_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_mm_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_mm_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into the zero accumulator, at (p, q): row p of the left operand against row q of the right. -/
theorem matmul_rows_apply {φ₁ φ₂ : FTy} (l : FVec Ideal S1024x1024 φ₁) (r : FVec Ideal S1024x1024 φ₂) (p q : Fin 1024) :
    matmul dot_S1024x1024_S1024x1024_S1024x1024_1_1_0_0_n_n none l r (constant S1024x1024 .f32 0x00000000#32) (ix2 p q)
      = ∑ k : Fin 1024, l (ix2 p k) * r (ix2 q k) := by
  show FloatOps.matmul dot_S1024x1024_S1024x1024_S1024x1024_1_1_0_0_n_n none l r (constant S1024x1024 .f32 0x00000000#32) (ix2 p q) = _
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_mm_0 _ _
    | ⟨1, _⟩ => exact (rhs_mm_1 _ _).trans hk)
  rw [el, er]

/-! ## The three stored values -/

/-- The reset value is zero everywhere. -/
theorem pay1_apply (i : S1024x1024.Idx) : k0_pay1 (F := Ideal) i = 0 := by
  unfold k0_pay1
  rw [shapeCast_self]
  exact Ideal.ofBits_zero_f32

/-- The accumulation: entry (p, q) gains the inner product of row p of the x-block and row q of the adj-block. -/
theorem pay2_apply (x0 x1 : Vec Ideal S1x1024x1024 .f32) (acc : Vec Ideal S1024x1024 .f32) (p q : Fin 1024) :
    k0_pay2 x0 x1 acc (ix2 p q) = acc (ix2 p q) + ∑ k : Fin 1024, x0 (ix3 (0 : Fin 1) p k) * x1 (ix3 (0 : Fin 1) q k) := by
  unfold k0_pay2
  rw [shapeCast_self]
  show acc (ix2 p q) + matmul (F := Ideal) dot_S1024x1024_S1024x1024_S1024x1024_1_1_0_0_n_n none _ _ (constant (F := Ideal) S1024x1024 .f32 0x00000000#32) (ix2 p q) = _
  rw [matmul_rows_apply]
  refine congrArg (acc (ix2 p q) + ·) (Finset.sum_congr rfl fun k _ => ?_)
  show shapeCast S1024x1024 x0 _ (ix2 p k) * shapeCast S1024x1024 x1 _ (ix2 q k) = _
  rw [dropLead_apply, dropLead_apply]

/-- The copy out: entry (0, p, q) of the block is entry (p, q) of the accumulator. -/
theorem pay3_apply {F : FTy → Type} [FloatOps F] (v : Vec F S1024x1024 .f32) (p q : Fin 1024) :
    k0_pay3 v (ix3 (0 : Fin 1) p q) = v (ix2 p q) := by
  unfold k0_pay3
  exact addLead_apply v _ p q

end Cert.KernelIdeal.Payloads

end
-- ==== Proof.Pieces.lean ====
/-
  What one grid point leaves behind, as values.

  At a grid point the body holds the x-block x0, the adj-block x1 and (from the point before) the accumulator xs0.
  At the first point of a run of eight it resets the accumulator to zero and then adds the blocks' product; at every
  other point it adds the product to what the point before left; at the last point of the run it also copies the
  accumulator out as the output block. These are the same three stored values whatever staging buffers the
  pipeline hands the body.
-/
import proofs.«154029_j47476568490654_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a run: the accumulator is set to zero, read back, and ends at zero plus the blocks' product. -/
theorem scratch_A (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : cond0_0 i) (hc1 : ¬cond0_1 i)
    (x0 : Vec F S1x1024x1024 .f32) (x1 : Vec F S1x1024x1024 .f32) :
    sout0_A_0 c i arg4 harg4 arg5 harg5 arg6 harg6 arg7 harg7 hc0 hc1 x0 x1 = k0_pay2 x0 x1 (k0_pay1 (F := F)) := by
  unfold sout0_A_0
  rw [View.read_writes_eq_canon _ _ _ (scover0_A_0 c i arg4 harg4 arg5 harg5 arg6 harg6 arg7 harg7 hc0 hc1 x0 x1)]
  unfold kernelRun0_A
  dsimp only
  sl_unfold_words
  rw [View.canon_cons_unit_zero (S := S1024x1024) hz2, View.readCov_unit_zero (S := S1024x1024) _ hz2]
  simp only [View.readAt_eq_ld, harg4.read_unread, harg5.read_unread, View.ld_unit_zero (S := S1x1024x1024) hz3]

/-- A middle point of a run: the accumulator ends at what the point before left plus the blocks' product. -/
theorem scratch_B (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : ¬cond0_1 i)
    (x0 : Vec F S1x1024x1024 .f32) (x1 : Vec F S1x1024x1024 .f32) (xs0 : Vec F S1024x1024 .f32) :
    sout0_B_0 c i arg4 harg4 arg5 harg5 arg6 harg6 arg7 harg7 hc0 hc1 x0 x1 xs0 = k0_pay2 x0 x1 xs0 := by
  unfold sout0_B_0
  rw [View.read_writes_eq_canon _ _ _ (scover0_B_0 c i arg4 harg4 arg5 harg5 arg6 harg6 arg7 harg7 hc0 hc1 x0 x1 xs0)]
  unfold kernelRun0_B
  dsimp only
  sl_unfold_words
  rw [View.canon_unit_zero (S := S1024x1024) hz2]
  simp only [View.readAt_eq_ld, harg4.read_unread, harg5.read_unread, harg7.read_unread, View.ld_unit_zero (S := S1x1024x1024) hz3, View.ld_unit_zero (S := S1024x1024) hz2]

/-- The last point of a run: the accumulator likewise; -/
theorem scratch_C (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x1024 .f32) (xs0 : Vec F S1024x1024 .f32) :
    sout0_C_0 c i arg4 harg4 arg5 harg5 arg6 harg6 arg7 harg7 hc0 hc1 x0 x1 xs0 = k0_pay2 x0 x1 xs0 := by
  unfold sout0_C_0
  rw [View.read_writes_eq_canon _ _ _ (scover0_C_0 c i arg4 harg4 arg5 harg5 arg6 harg6 arg7 harg7 hc0 hc1 x0 x1 xs0)]
  unfold kernelRun0_C
  dsimp only
  sl_unfold_words
  rw [View.canon_unit_zero (S := S1024x1024) hz2]
  simp only [View.readAt_eq_ld, harg4.read_unread, harg5.read_unread, harg7.read_unread, View.ld_unit_zero (S := S1x1024x1024) hz3, View.ld_unit_zero (S := S1024x1024) hz2]

/-- and the output block is the accumulator just stored, read back and given its leading unit axis. -/
theorem out_C (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x1024 .f32) (xs0 : Vec F S1024x1024 .f32) :
    out0_C_2 c i arg4 harg4 arg5 harg5 arg6 harg6 arg7 harg7 hc0 hc1 x0 x1 xs0 = k0_pay3 (k0_pay2 x0 x1 xs0) := by
  unfold out0_C_2
  rw [View.read_writes_eq_canon _ _ _ (cover0_C_2 c i arg4 harg4 arg5 harg5 arg6 harg6 arg7 harg7 hc0 hc1 x0 x1 xs0)]
  unfold kernelRun0_C
  dsimp only
  sl_unfold_words
  rw [View.canon_unit_zero (S := S1x1024x1024) hz3, View.readCov_unit_zero (S := S1024x1024) _ hz2]
  simp only [View.readAt_eq_ld, harg4.read_unread, harg5.read_unread, harg7.read_unread, View.ld_unit_zero (S := S1x1024x1024) hz3, View.ld_unit_zero (S := S1024x1024) hz2]

end Cert.KernelIdeal.Pieces

end
-- ==== Proof.Blocks.lean ====
/-
  Where a grid point's blocks sit in the arrays.

  The grid has 2 x 3 x 8 x 8 = 384 points; point t stands for batch b = t / 192, row tile i = (t / 64) % 3 of x,
  row tile j = (t / 8) % 8 of adj, and chunk s = t % 8 of the contracted axis. Its x-block is
  x[b, 1024 i .. , 1024 s ..], its adj-block adj[b, 1024 j .. , 1024 s ..], its output block out[b, 1024 i .. , 1024 j ..].
-/
import proofs.«154029_j47476568490654_1_alg».proof.Proof.Gen.KernelIdeal.Frame
import proofs.«154029_j47476568490654_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

/-- The three windows' block indices at point t, in closed form: decided over the 384 points. -/
theorem idx_facts : ∀ t : Fin cfg0.N,
    win0_0.index t (0 : Fin 3) = t.val / 192 ∧ win0_0.index t (1 : Fin 3) = (t.val / 64) % 3 ∧ win0_0.index t (2 : Fin 3) = t.val % 8
    ∧ win0_1.index t (0 : Fin 3) = t.val / 192 ∧ win0_1.index t (1 : Fin 3) = (t.val / 8) % 8 ∧ win0_1.index t (2 : Fin 3) = t.val % 8
    ∧ win0_2.index t (0 : Fin 3) = t.val / 192 ∧ win0_2.index t (1 : Fin 3) = (t.val / 64) % 3 ∧ win0_2.index t (2 : Fin 3) = (t.val / 8) % 8 :=
  (by decide +kernel : ∀ t : Fin grid0.N, _)

variable (m : (ℓ : Loc nD τ sig) → Buf (Elt Ideal) ℓ)

/-- The x array and the adj array as the kernel finds them. -/
abbrev xArr (c : Dev nD) : GcnSpec.SX.Idx → EReal := m ((c : Thread nD τ).loc main_arg0)
abbrev aArr (c : Dev nD) : GcnSpec.SA.Idx → EReal := m ((c : Thread nD τ).loc main_arg1)

/-- The point's x-block and adj-block, at their literal type. -/
abbrev xblk (c : Dev nD) (t : Fin cfg0.N) : Vec Ideal S1x1024x1024 .f32 := iblk m c 0 t
abbrev ablk (c : Dev nD) (t : Fin cfg0.N) : Vec Ideal S1x1024x1024 .f32 := iblk m c 1 t

/-- Entry (0, p, k) of the x-block at point t. -/
theorem xblk_apply (c : Dev nD) (t : Fin cfg0.N) (p k : Fin 1024) :
    xblk m c t (ix3 (0 : Fin 1) p k)
      = GcnSpec.xAt (xArr m c) (t.val / 192) (1024 * ((t.val / 64) % 3) + p.val) (1024 * (t.val % 8) + k.val) := by
  obtain ⟨e0, e1, e2, -⟩ := idx_facts t
  have hN : t.val < 384 := lt_of_lt_of_eq t.isLt (show cfg0.N = 384 from N_0)
  have hp := p.isLt
  have hk := k.isLt
  unfold xblk iblk
  rw [View.read_apply]
  show V m c main_arg0 _ = _
  unfold V GcnSpec.xAt xArr
  refine congrArg (m ((c : Thread nD τ).loc main_arg0)) (funext fun a => Fin.ext ?_)
  match a with
  | ⟨0, _⟩ => show win0_0.index t (0 : Fin 3) * 1 + 1 * 0 = (t.val / 192) % 2; rw [e0]; omega
  | ⟨1, _⟩ => show win0_0.index t (1 : Fin 3) * 1024 + 1 * p.val = (1024 * ((t.val / 64) % 3) + p.val) % 3072; rw [e1]; omega
  | ⟨2, _⟩ => show win0_0.index t (2 : Fin 3) * 1024 + 1 * k.val = (1024 * (t.val % 8) + k.val) % 8192; rw [e2]; omega

/-- Entry (0, q, k) of the adj-block at point t. -/
theorem ablk_apply (c : Dev nD) (t : Fin cfg0.N) (q k : Fin 1024) :
    ablk m c t (ix3 (0 : Fin 1) q k)
      = GcnSpec.aAt (aArr m c) (t.val / 192) (1024 * ((t.val / 8) % 8) + q.val) (1024 * (t.val % 8) + k.val) := by
  obtain ⟨-, -, -, e0, e1, e2, -⟩ := idx_facts t
  have hN : t.val < 384 := lt_of_lt_of_eq t.isLt (show cfg0.N = 384 from N_0)
  have hq := q.isLt
  have hk := k.isLt
  unfold ablk iblk
  rw [View.read_apply]
  show V m c main_arg1 _ = _
  unfold V GcnSpec.aAt aArr
  refine congrArg (m ((c : Thread nD τ).loc main_arg1)) (funext fun a => Fin.ext ?_)
  match a with
  | ⟨0, _⟩ => show win0_1.index t (0 : Fin 3) * 1 + 1 * 0 = (t.val / 192) % 2; rw [e0]; omega
  | ⟨1, _⟩ => show win0_1.index t (1 : Fin 3) * 1024 + 1 * q.val = (1024 * ((t.val / 8) % 8) + q.val) % 8192; rw [e1]; omega
  | ⟨2, _⟩ => show win0_1.index t (2 : Fin 3) * 1024 + 1 * k.val = (1024 * (t.val % 8) + k.val) % 8192; rw [e2]; omega

end Cert.KernelIdeal.Blocks

end
-- ==== Proof.Fold.lean ====
/-
  The accumulator after each grid point, entry by entry.

  Within a run of eight consecutive points (one output block) point n adds to entry (p, q) of the accumulator the
  chunk n % 8 of the inner product of row 1024 i + p of x[b] with row 1024 j + q of adj[b]; the first point of the run
  starts from zero. So after the point at offset r of its run the entry holds zero plus the chunks 0, …, r, and at the
  run's last point, where the accumulator is copied out, it holds zero plus all eight chunks.
-/
import proofs.«154029_j47476568490654_1_alg».proof.Proof.Gen.KernelIdeal.Value
import proofs.«154029_j47476568490654_1_alg».proof.Proof.Spec
import proofs.«154029_j47476568490654_1_alg».proof.Proof.Payloads
import proofs.«154029_j47476568490654_1_alg».proof.Proof.Pieces
import proofs.«154029_j47476568490654_1_alg».proof.Proof.Blocks
import Idealize.ShloMosaic.Lib.Pipeline.Value
import Idealize.ShloMosaic.Lib.ValueIdx

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx
open Cert.KernelIdeal.Blocks Cert.KernelIdeal.Pieces Cert.KernelIdeal.Payloads

variable (m : (ℓ : Loc nD τ sig) → Buf (Elt Ideal) ℓ)

/-- What point n adds to entry (p, q) of the accumulator: chunk n % 8 of the inner product its block position names. -/
def addend (c : Dev nD) (n p q : ℕ) : EReal :=
  GcnSpec.chunk (xArr m c) (aArr m c) (n / 192) (1024 * ((n / 64) % 3) + p) (1024 * ((n / 8) % 8) + q) (n % 8)

/-- The product of the point's two blocks, at (p, q), is that chunk. -/
theorem prod_eq (c : Dev nD) (t : Fin cfg0.N) (p q : Fin 1024) :
    ∑ k : Fin 1024, xblk m c t (ix3 (0 : Fin 1) p k) * ablk m c t (ix3 (0 : Fin 1) q k) = addend m c t.val p.val q.val := by
  unfold addend GcnSpec.chunk
  rw [Finset.sum_range]
  refine Finset.sum_congr rfl fun k _ => ?_
  rw [xblk_apply, ablk_apply]
  rfl

/-- One point's step on the accumulator, at (p, q): from zero at the first point of a run, from what the point
    before left otherwise; plus the point's chunk. -/
theorem step_apply (c : Dev nD) (n : ℕ) (hb : n < cfg0.N) (acc : Vec Ideal S1024x1024 .f32) (p q : Fin 1024) :
    Value.scAt0_0 m c n hb acc (ix2 p q) = (if n % 8 = 0 then 0 else acc (ix2 p q)) + addend m c n p.val q.val := by
  unfold Value.scAt0_0
  by_cases h0 : n % 8 = 0
  · have h1 : ¬n % 8 = 7 := by omega
    rw [dif_pos h0, dif_neg h1, if_pos h0]
    refine (congrFun (scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))) (ix2 p q)).trans ?_
    refine (pay2_apply (xblk m c (⟨n, hb⟩ : Fin cfg0.N)) (ablk m c (⟨n, hb⟩ : Fin cfg0.N)) (k0_pay1 (F := Ideal)) p q).trans ?_
    rw [pay1_apply, prod_eq]
  · rw [dif_neg h0, if_neg h0]
    by_cases h1 : n % 8 = 7
    · rw [dif_pos h1]
      refine (congrFun (scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc) (ix2 p q)).trans ?_
      refine (pay2_apply (xblk m c (⟨n, hb⟩ : Fin cfg0.N)) (ablk m c (⟨n, hb⟩ : Fin cfg0.N)) acc p q).trans ?_
      rw [prod_eq]
    · rw [dif_neg h1]
      refine (congrFun (scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc) (ix2 p q)).trans ?_
      refine (pay2_apply (xblk m c (⟨n, hb⟩ : Fin cfg0.N)) (ablk m c (⟨n, hb⟩ : Fin cfg0.N)) acc p q).trans ?_
      rw [prod_eq]

/-- The accumulator after point t, at (p, q): zero plus the chunks of the run's points up to t. -/
theorem fold_apply (c : Dev nD) (t : Fin cfg0.N) (p q : Fin 1024) :
    (outsAt0 m c t.val t.isLt).2 (ix2 p q)
      = 0 + ∑ s ∈ Finset.range (t.val % 8 + 1), addend m c (8 * (t.val / 8) + s) p.val q.val := by
  rw [Value.soutsAt0_0_eq m c t]
  exact Pipeline.accAt_add_apply (fun n h => Value.scAt0_0 m c n h (VS0_0.read (Elt Ideal) VS0_0.junk)) (Value.scAt0_0 m c)
    (fun _ => (0 : EReal)) (fun n (i : S1024x1024.Idx) => addend m c n (i 0).val (i 1).val) (8 * (t.val / 8)) 7
    (fun h i => by
      obtain ⟨p', q', rfl⟩ : ∃ (p' q' : Fin 1024), i = ix2 p' q' := ⟨i 0, i 1, eq_ix2 i⟩
      show Value.scAt0_0 m c (8 * (t.val / 8)) h _ (ix2 p' q') = 0 + addend m c (8 * (t.val / 8)) p'.val q'.val
      rw [step_apply, if_pos (by omega)])
    (fun n h acc i hlt hle => by
      obtain ⟨p', q', rfl⟩ : ∃ (p' q' : Fin 1024), i = ix2 p' q' := ⟨i 0, i 1, eq_ix2 i⟩
      show Value.scAt0_0 m c n h acc (ix2 p' q') = acc (ix2 p' q') + addend m c n p'.val q'.val
      rw [step_apply, if_neg (by omega)])
    (t.val % 8) (by omega) _ (ix2 p q)

/-- At the last point of a run the output block is the accumulator that point leaves, with a leading unit axis. -/
theorem out_at_last (c : Dev nD) (t : Fin cfg0.N) (h1 : t.val % 8 = 7) :
    (outsAt0 m c t.val t.isLt).1 = k0_pay3 ((outsAt0 m c t.val t.isLt).2) := by
  have h0 : ¬t.val % 8 = 0 := by omega
  rw [outsAt0_C m c t h0 h1]
  dsimp only
  exact (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (congrArg k0_pay3 (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm)

end Cert.KernelIdeal.Fold

end
-- ==== Proof.KernelResult.lean ====
/-
  The kernel's result array.

  The output block of a run of eight points is written back at the run's last point; it holds, at (p, q), zero plus the
  eight chunks of the inner product of row 1024 i + p of x[b] with row 1024 j + q of adj[b]: the block of the result
  array at block position (b, i, j). The 2 x 3 x 8 output blocks tile the array, so the array ends holding the result.
-/
import proofs.«154029_j47476568490654_1_alg».proof.Proof.Fold

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks Cert.KernelIdeal.Payloads Cert.KernelIdeal.Fold

variable (m : (ℓ : Loc nD τ sig) → Buf (Elt Ideal) ℓ) (ρ : Dev nD → PrngReg)

/-- The result array, of the arrays as the kernel finds them. -/
abbrev result (c : Dev nD) : Buf (Elt Ideal) ((c : Thread nD τ).loc main_v0) := GcnSpec.result (xArr m c) (aArr m c)

/-- What a run's last point writes back is its block of the result array. -/
theorem flushed_eq (c : Dev nD) (t : Fin cfg0.N) (hf : (cfg0.win 2).flush t = true) :
    (dats m 0 c).flushed 2 t = ((cfg0.win 2).blk t).view.read (Elt Ideal) (result m c) := by
  have h1 : t.val % 8 = 7 := (flush0_2 t).mp hf
  have hN : t.val < 384 := lt_of_lt_of_eq t.isLt (show cfg0.N = 384 from N_0)
  obtain ⟨-, -, -, -, -, -, e0, e1, e2⟩ := idx_facts t
  rw [Value.flushed2, out_at_last m c t h1]
  funext (y : S1x1024x1024.Idx)
  obtain ⟨z, p, q, rfl⟩ : ∃ (z : Fin 1) (p q : Fin 1024), y = ix3 z p q := ⟨y 0, y 1, y 2, eq_ix3 y⟩
  obtain rfl : z = 0 := Subsingleton.elim _ _
  have hp := p.isLt
  have hq := q.isLt
  have c0 : ((((cfg0.win 2).blk t).view.emb (ix3 (0 : Fin 1) p q)) (0 : Fin 3)).val = t.val / 192 := by
    show win0_2.index t (0 : Fin 3) * 1 + 1 * 0 = _; rw [e0]; omega
  have c1 : ((((cfg0.win 2).blk t).view.emb (ix3 (0 : Fin 1) p q)) (1 : Fin 3)).val = 1024 * ((t.val / 64) % 3) + p.val := by
    show win0_2.index t (1 : Fin 3) * 1024 + 1 * p.val = _; rw [e1]; omega
  have c2 : ((((cfg0.win 2).blk t).view.emb (ix3 (0 : Fin 1) p q)) (2 : Fin 3)).val = 1024 * ((t.val / 8) % 8) + q.val := by
    show win0_2.index t (2 : Fin 3) * 1024 + 1 * q.val = _; rw [e2]; omega
  show k0_pay3 ((outsAt0 m c t.val t.isLt).2) (ix3 (0 : Fin 1) p q)
      = GcnSpec.result (xArr m c) (aArr m c) (((cfg0.win 2).blk t).view.emb (ix3 (0 : Fin 1) p q))
  rw [pay3_apply, fold_apply, h1, GcnSpec.result_apply, c0, c1, c2]
  refine congrArg (0 + ·) (Finset.sum_congr rfl fun s hs => ?_)
  have hs' : s < 8 := Finset.mem_range.mp hs
  unfold addend
  have a1 : (8 * (t.val / 8) + s) / 192 = t.val / 192 := by omega
  have a2 : ((8 * (t.val / 8) + s) / 64) % 3 = (t.val / 64) % 3 := by omega
  have a3 : ((8 * (t.val / 8) + s) / 8) % 8 = (t.val / 8) % 8 := by omega
  have a4 : (8 * (t.val / 8) + s) % 8 = s := by omega
  rw [a1, a2, a3, a4]

/-- An index of the result array is in point t's output block iff each coordinate is in the block's range. -/
theorem mem_blk (t : Fin cfg0.N) (i : S2x3072x8192.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index of the result array lies in the output block of some run's last point. -/
theorem cover (i : S2x3072x8192.Idx) : ∃ t : Fin cfg0.N, (cfg0.win 2).flush t = true ∧ i ∈ ((cfg0.win 2).blk t).view.set := by
  have h0 : (i 0).val < 2 := (i 0).isLt
  have h1 : (i 1).val < 3072 := (i 1).isLt
  have h2 : (i 2).val < 8192 := (i 2).isLt
  obtain ⟨n, hn⟩ : ∃ n : ℕ, n = (((i 0).val * 3 + (i 1).val / 1024) * 8 + (i 2).val / 1024) * 8 + 7 := ⟨_, rfl⟩
  have hlt : n < cfg0.N := by rw [show cfg0.N = 384 from N_0]; omega
  obtain ⟨-, -, -, -, -, -, e0, e1, e2⟩ := idx_facts ⟨n, hlt⟩
  have e0' : win0_2.index ⟨n, hlt⟩ (0 : Fin 3) = n / 192 := e0
  have e1' : win0_2.index ⟨n, hlt⟩ (1 : Fin 3) = (n / 64) % 3 := e1
  have e2' : win0_2.index ⟨n, hlt⟩ (2 : Fin 3) = (n / 8) % 8 := e2
  refine ⟨⟨n, hlt⟩, (flush0_2 _).mpr (by show n % 8 = 7; omega), ?_⟩
  rw [mem_blk]
  intro a
  match a with
  | ⟨0, _⟩ =>
    show win0_2.index ⟨n, hlt⟩ (0 : Fin 3) * 1 ≤ (i 0).val ∧ (i 0).val < win0_2.index ⟨n, hlt⟩ (0 : Fin 3) * 1 + 1
    rw [e0']; omega
  | ⟨1, _⟩ =>
    show win0_2.index ⟨n, hlt⟩ (1 : Fin 3) * 1024 ≤ (i 1).val ∧ (i 1).val < win0_2.index ⟨n, hlt⟩ (1 : Fin 3) * 1024 + 1024
    rw [e1']; omega
  | ⟨2, _⟩ =>
    show win0_2.index ⟨n, hlt⟩ (2 : Fin 3) * 1024 ≤ (i 2).val ∧ (i 2).val < win0_2.index ⟨n, hlt⟩ (2 : Fin 3) * 1024 + 1024
    rw [e2']; omega

/-- The result array after the run. -/
theorem final (c : Dev nD) : (dats m 0 c).arrAt 2 cfg0.N = result m c :=
  (dats m 0 c).arrAt_eq_of_cover 2 (result m c) (flushed_eq m c) cover

/-- The kernel's run: it ends with the result array holding the result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.RefResult.lean ====
/-
  The reference's result array.

  The reference is one batched product: entry (b, d, n) is the sum over all 8192 neighbours m of
  x[b, d, m] * adj[b, n, m] — the whole inner product, which is the sum of its eight chunks.
-/
import proofs.«154029_j47476568490654_1_alg».proof.Proof.Gen.ReferenceIdeal.Read
import proofs.«154029_j47476568490654_1_alg».proof.Proof.Spec

noncomputable section

open scoped BigOperators

namespace Cert.ReferenceIdeal.Result

open Cert.ReferenceIdeal Idealize.ShloMosaic Idealize.ShloMosaic.ValueIdx

/-- The reference's batched product is the result array. -/
theorem ref_eq (X : GcnSpec.SX.Idx → EReal) (A : GcnSpec.SA.Idx → EReal) :
    Read.val_main_v0 (F := Ideal) X A = GcnSpec.result X A := by
  funext i
  rw [Read.val_main_v0_apply, GcnSpec.result_apply, zero_add, ← GcnSpec.inner_eq_chunks]
  unfold GcnSpec.inner
  rw [Finset.sum_range]
  refine Finset.sum_congr rfl fun k _ => ?_
  unfold GcnSpec.term
  rw [GcnSpec.xAt_fin X (i 0) (i 1) k, GcnSpec.aAt_fin A (i 0) (i 2) k]
  have el : Read.lidx_main_v0 i k = ix3 (i 0) (i 1) k := funext fun a => Fin.ext (by
    match a with
    | ⟨0, _⟩ => rfl
    | ⟨1, _⟩ => rfl
    | ⟨2, _⟩ => rfl)
  have er : Read.ridx_main_v0 i k = ix3 (i 0) (i 2) k := funext fun a => Fin.ext (by
    match a with
    | ⟨0, _⟩ => rfl
    | ⟨1, _⟩ => rfl
    | ⟨2, _⟩ => rfl)
  rw [el, er]
  rfl

end Cert.ReferenceIdeal.Result

end
-- ==== Proof.lean ====
/-
  Both programs compute out[b, d, n] = sum over m of x[b, d, m] * adj[b, n, m] for x of shape 2 x 3072 x 8192 and adj of
  shape 2 x 8192 x 8192. The reference does it as one batched product. The kernel tiles the result into
  1024 x 1024 blocks and the contracted axis into eight chunks of 1024; for each block it zeroes an accumulator, adds
  the product of the x-block and the transposed adj-block chunk by chunk, and copies the accumulator out after the
  eighth chunk. Over the extended reals narrowing the operands changes nothing and a sum may be regrouped into
  consecutive chunks added from zero, so both arrays hold the same extended real at every index; no finiteness of the
  inputs is used.

  The three frames are the generated ones (the reference's is its generated run with the result dropped); the
  idealization rewrote nothing, so that conjunct is trivial; the value conjunct sets the kernel's run beside the
  reference's run, both ending at the same function of the arguments.
-/
import proofs.«154029_j47476568490654_1_alg».proof.Defs
import proofs.«154029_j47476568490654_1_alg».proof.Proof.Gen.Kernel
import proofs.«154029_j47476568490654_1_alg».proof.Proof.Gen.Kernel.Skeleton
import proofs.«154029_j47476568490654_1_alg».proof.Proof.Gen.Kernel.Launch
import proofs.«154029_j47476568490654_1_alg».proof.Proof.Gen.Kernel.Points
import proofs.«154029_j47476568490654_1_alg».proof.Proof.Gen.Kernel.Frame
import proofs.«154029_j47476568490654_1_alg».proof.Proof.Gen.KernelIdeal
import proofs.«154029_j47476568490654_1_alg».proof.Proof.Gen.KernelIdeal.Skeleton
import proofs.«154029_j47476568490654_1_alg».proof.Proof.Gen.KernelIdeal.Launch
import proofs.«154029_j47476568490654_1_alg».proof.Proof.Gen.KernelIdeal.Points
import proofs.«154029_j47476568490654_1_alg».proof.Proof.Gen.KernelIdeal.Frame
import proofs.«154029_j47476568490654_1_alg».proof.Proof.Gen.ReferenceIdeal
import proofs.«154029_j47476568490654_1_alg».proof.Proof.Gen.Pre_finite_inputs
import proofs.«154029_j47476568490654_1_alg».proof.Proof.Gen.KernelIdeal.Value
import proofs.«154029_j47476568490654_1_alg».proof.Proof.Gen.ReferenceIdeal.Run
import proofs.«154029_j47476568490654_1_alg».proof.Proof.Gen.ReferenceIdeal.Read
import proofs.«154029_j47476568490654_1_alg».proof.Proof.KernelResult
import proofs.«154029_j47476568490654_1_alg».proof.Proof.RefResult
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run ends with the result array at the chunked inner products of its arguments; the reference's run
    ends with its batched product of arguments that agree with the kernel's, which is the same array. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.ReferenceIdeal.Result.ref_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
